-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.bf16_pack.Statement Cert.KernelIdeal.S256x1024

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x90x2 : Shape := ⟨3, ![16, 90, 2]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x90x2 : S_.BroadcastsInDim S16x90x2 (![] : Fin 0 → Fin S16x90x2.rank)
  reducesTo_S16x90x2_S_d0_1_2 : S16x90x2.ReducesTo [0, 1, 2] S_

variable [Facts]

def fn {F : FTy → Type} [FloatOps F] (main_arg0 : FVec F S16x256x128x128 .f32) (main_arg1 : IVec S16x90x2 32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_c_0 : IVec S_ 32 := constantI S_ 32 0#32
  let main_v4 : IVec S16x90x2 32 := broadcastInDim S16x90x2 ![] bcast_S_S16x90x2 main_c_0
  let main_v5 : IVec S16x90x2 1 := cmpi .sge main_arg1 main_v4
  let main_c_1 : IVec S_ 32 := constantI S_ 32 128#32
  let main_v6 : IVec S16x90x2 32 := broadcastInDim S16x90x2 ![] bcast_S_S16x90x2 main_c_1
  let main_v7 : IVec S16x90x2 1 := cmpi .slt main_arg1 main_v6
  let main_v8 : IVec S16x90x2 1 := andi main_v5 main_v7
  let main_c_2 : IVec S_ 1 := constantI S_ 1 1#1
  let main_v9 : IVec S_ 1 := (fun x v => Host.reduce IntOp.andi x v reducesTo_S16x90x2_S_d0_1_2 h_S_) main_v8 main_c_2
  let main_v10 : IVec S_ 1 := andi main_v3 main_v9
  main_v10
-- ==== Kernel.lean ====
abbrev S16x256x128x128 : Shape := ⟨4, ![16, 256, 128, 128]⟩
abbrev S16x90x2 : Shape := ⟨3, ![16, 90, 2]⟩
abbrev S16x256x16384 : Shape := ⟨3, ![16, 256, 16384]⟩
abbrev S16x90x1 : Shape := ⟨3, ![16, 90, 1]⟩
abbrev S16x90 : Shape := ⟨2, ![16, 90]⟩
abbrev S_ : Shape := ⟨0, ![]⟩
abbrev S16x128 : Shape := ⟨2, ![16, 128]⟩
abbrev S16x1x128 : Shape := ⟨3, ![16, 1, 128]⟩
abbrev S16x256x128 : Shape := ⟨3, ![16, 256, 128]⟩
abbrev S1x256x16384 : Shape := ⟨3, ![1, 256, 16384]⟩
abbrev S1x1x128 : Shape := ⟨3, ![1, 1, 128]⟩
abbrev S1x256x128 : Shape := ⟨3, ![1, 256, 128]⟩
abbrev S128 : Shape := ⟨1, ![128]⟩
abbrev S256x128 : Shape := ⟨2, ![256, 128]⟩
abbrev S1x256x1024 : Shape := ⟨3, ![1, 256, 1024]⟩
abbrev S256x1024 : Shape := ⟨2, ![256, 1024]⟩
abbrev S1024x128 : Shape := ⟨2, ![1024, 128]⟩
abbrev S1x128 : Shape := ⟨2, ![1, 128]⟩
abbrev S16x256x90 : Shape := ⟨3, ![16, 256, 90]⟩

abbrev nBuf : Space → Nat
  | .hbm => 17
  | .vmem => 6
  | .smem => 0
  | _ => 0

abbrev bufTy : (tb : Table) → Fin (tcTables nBuf tb) → BufTy
  | .hbm, ⟨0, _⟩ => ⟨S16x256x128x128, .f32⟩
  | .hbm, ⟨1, _⟩ => ⟨S16x90x2, .i32⟩
  | .hbm, ⟨2, _⟩ => ⟨S16x256x16384, .f32⟩
  | .hbm, ⟨3, _⟩ => ⟨S16x90x1, .i32⟩
  | .hbm, ⟨4, _⟩ => ⟨S16x90, .i32⟩
  | .hbm, ⟨5, _⟩ => ⟨S16x90x1, .i32⟩
  | .hbm, ⟨6, _⟩ => ⟨S16x90, .i32⟩
  | .hbm, ⟨7, _⟩ => ⟨S_, .i32⟩
  | .hbm, ⟨8, _⟩ => ⟨S16x90, .i32⟩
  | .hbm, ⟨9, _⟩ => ⟨S16x90, .i32⟩
  | .hbm, ⟨10, _⟩ => ⟨S16x90, .i32⟩
  | .hbm, ⟨11, _⟩ => ⟨S_, .i32⟩
  | .hbm, ⟨12, _⟩ => ⟨S_, .i32⟩
  | .hbm, ⟨13, _⟩ => ⟨S16x128, .i32⟩
  | .hbm, ⟨14, _⟩ => ⟨S16x1x128, .i32⟩
  | .hbm, ⟨15, _⟩ => ⟨S16x256x128, .f32⟩
  | .hbm, ⟨16, _⟩ => ⟨S16x256x90, .f32⟩
  | .local _ .vmem, ⟨0, _⟩ => ⟨S1x256x16384, .f32⟩
  | .local _ .vmem, ⟨1, _⟩ => ⟨S1x256x16384, .f32⟩
  | .local _ .vmem, ⟨2, _⟩ => ⟨S1x1x128, .i32⟩
  | .local _ .vmem, ⟨3, _⟩ => ⟨S1x1x128, .i32⟩
  | .local _ .vmem, ⟨4, _⟩ => ⟨S1x256x128, .f32⟩
  | .local _ .vmem, ⟨5, _⟩ => ⟨S1x256x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v8 : BitVec 32 := Scalar.muli arg4 c1024_i32
  v8
def k0_off1 (k0_t1 : Fin k0_t1_loop.trips) : Fin 3 → Nat :=
  let c0_6 : Index := 0#32
  let c0_7 : Index := 0#32
  let c0_i32 : BitVec 32 := 0#32
  let c1_i32 : BitVec 32 := 1#32
  let arg4 : BitVec 32 := Scf.iv c0_i32 c1_i32 k0_t1
  let c1024_i32 : BitVec 32 := 1024#32
  let v8 : BitVec 32 := Scalar.muli arg4 c1024_i32
  let v9 : BitVec 32 := v8
  let v10 : Index := Scalar.indexCast v9
  ![0, 0, v10.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x128x128_S16x256x16384 : S16x256x128x128.ShapeCasts S16x256x16384
  slices_S16x90x2_S16x90x1_0_0_0 : S16x90x2.Slices ![0, 0, 0] S16x90x1
  shapeCasts_S16x90x1_S16x90 : S16x90x1.ShapeCasts S16x90
  slices_S16x90x2_S16x90x1_0_0_1 : S16x90x2.Slices ![0, 0, 1] S16x90x1
  bcast_S_S16x90 : S_.BroadcastsInDim S16x90 (![] : Fin 0 → Fin S16x90.rank)
  pads_S16x90_S16x128_000_0380 : S16x90.Pads (![0, 0] : Fin 2 → Nat) ![0, 38] ![0, 0] S16x128
  h_S_ : 0 < S_.numel
  shapeCasts_S16x128_S16x1x128 : S16x128.ShapeCasts S16x1x128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  h_S1x256x1024 : 0 < S1x256x1024.numel
  shapeCasts_S1x256x1024_S256x1024 : S1x256x1024.ShapeCasts S256x1024
  bitsLt_bf16_f32 : FTy.bits .bf16 < FTy.bits .f32
  iota_S1024x128_d0_w32 : S1024x128.Iotas .tc 32 [0]
  shapeCasts_S128_S1x128 : S128.ShapeCasts S1x128
  broadcasts_S1x128_S1024x128 : S1x128.Broadcasts S1024x128
  natLt_1_32 : 1 < 32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  slices_S16x256x128_S16x256x90_0_0_0 : S16x256x128.Slices ![0, 0, 0] S16x256x90
  dot_S256x1024_S1024x128_S256x128_1_0_0_1_n_n_wf : DotDims.WF S256x1024 S1024x128 S256x128 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x256x1024.size a ≤ S1x256x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16384.size a ≤ S16x256x16384.size a
  hwx0_0 : ∀ i : grid0.Coords, EltTy.bits .f32 = 32 ∨ (Rect.block (s := S16x256x16384) S1x256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S16x1x128.size a
  hwx0_1 : ∀ i : grid0.Coords, EltTy.bits .i32 = 32 ∨ (Rect.block (s := S16x1x128) S1x1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S16x256x128.size a
  hwx0_2 : ∀ i : grid0.Coords, EltTy.bits .f32 = 32 ∨ (Rect.block (s := S16x256x128) S1x256x128.size (cc0_transform_2 i) (hinb0_2 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_v0) S1x256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S16x90x2 : Shape := ⟨3, ![16, 90, 2]⟩
abbrev S16x90x1 : Shape := ⟨3, ![16, 90, 1]⟩
abbrev S16x90 : Shape := ⟨2, ![16, 90]⟩
abbrev S_ : Shape := ⟨0, ![]⟩
abbrev S16x256x90 : Shape := ⟨3, ![16, 256, 90]⟩

abbrev nBuf : Space → Nat
  | .hbm => 24
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x90x2, .i32⟩
  | .hbm, ⟨2, _⟩ => ⟨S16x90x1, .i32⟩
  | .hbm, ⟨3, _⟩ => ⟨S16x90, .i32⟩
  | .hbm, ⟨4, _⟩ => ⟨S16x90x1, .i32⟩
  | .hbm, ⟨5, _⟩ => ⟨S16x90, .i32⟩
  | .hbm, ⟨6, _⟩ => ⟨S_, .i32⟩
  | .hbm, ⟨7, _⟩ => ⟨S16x90, .i32⟩
  | .hbm, ⟨8, _⟩ => ⟨S16x90, .i1⟩
  | .hbm, ⟨9, _⟩ => ⟨S_, .i32⟩
  | .hbm, ⟨10, _⟩ => ⟨S16x90, .i32⟩
  | .hbm, ⟨11, _⟩ => ⟨S16x90, .i32⟩
  | .hbm, ⟨12, _⟩ => ⟨S16x90, .i32⟩
  | .hbm, ⟨13, _⟩ => ⟨S_, .i32⟩
  | .hbm, ⟨14, _⟩ => ⟨S16x90, .i32⟩
  | .hbm, ⟨15, _⟩ => ⟨S16x90, .i1⟩
  | .hbm, ⟨16, _⟩ => ⟨S_, .i32⟩
  | .hbm, ⟨17, _⟩ => ⟨S16x90, .i32⟩
  | .hbm, ⟨18, _⟩ => ⟨S16x90, .i32⟩
  | .hbm, ⟨19, _⟩ => ⟨S16x90, .i32⟩
  | .hbm, ⟨20, _⟩ => ⟨S16x90x1, .i32⟩
  | .hbm, ⟨21, _⟩ => ⟨S16x90x1, .i32⟩
  | .hbm, ⟨22, _⟩ => ⟨S16x90x2, .i32⟩
  | .hbm, ⟨23, _⟩ => ⟨S16x256x90, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S16x90x2_S16x90x1_0_0_0 : S16x90x2.Slices ![0, 0, 0] S16x90x1
  shapeCasts_S16x90x1_S16x90 : S16x90x1.ShapeCasts S16x90
  slices_S16x90x2_S16x90x1_0_0_1 : S16x90x2.Slices ![0, 0, 1] S16x90x1
  bcast_S_S16x90 : S_.BroadcastsInDim S16x90 (![] : Fin 0 → Fin S16x90.rank)
  bcast_S16x90_S16x90x1_0_1 : S16x90.BroadcastsInDim S16x90x1 (![0, 1] : Fin 2 → Fin S16x90x1.rank)
  concatenates_S16x90x1_S16x90x1_S16x90x2_d2 : Shape.Concatenates [S16x90x1, S16x90x1] S16x90x2 2
  gather_S16x256x128x128_S16x90x2_S16x256x90_1_23_0_0_23_2_125611_wf : GatherDims.WF S16x256x128x128 S16x90x2 S16x256x90 [1] [2, 3] [0] [2, 3] [0] 2 ![1, 256, 1, 1]

variable [Facts₀]

def gather_S16x256x128x128_S16x90x2_S16x256x90_1_23_0_0_23_2_125611 : GatherDims S16x256x128x128 S16x90x2 S16x256x90 where
  offsetDims := [1]
  collapsedSliceDims := [2, 3]
  operandBatchingDims := [0]
  startIndicesBatchingDims := [0]
  startIndexMap := [2, 3]
  indexVectorDim := 2
  sliceSizes := ![1, 256, 1, 1]
  wf := gather_S16x256x128x128_S16x90x2_S16x256x90_1_23_0_0_23_2_125611_wf

class Facts : Prop extends Facts₀ where

variable [Facts]
-- ==== Proof.Spec.lean ====
/-
  The function both programs compute: ray `r` of batch `b` reads, in every channel `c`, the entry of the
  feature map `x[b, c, ·, ·]` at the spatial position `(v[b, r, 0], v[b, r, 1])`. Stated once, over the
  argument arrays, for index words in `[0, 128)` (the two spatial extents) and finite map entries.
-/
import Idealize.ShloMosaic.PureOps.Ideal
import Idealize.ShloMosaic.Lib.ValueIdx

noncomputable section

namespace Cert.Sampler

open Idealize.ShloMosaic Idealize.ShloMosaic.ValueIdx

/-- The feature maps `[batch, channel, row, column]`. -/
abbrev SX : Shape := ⟨4, ![16, 256, 128, 128]⟩
/-- The ray positions `[batch, ray, (row, column)]`. -/
abbrev SV : Shape := ⟨3, ![16, 90, 2]⟩
/-- The samples `[batch, channel, ray]`. -/
abbrev SO : Shape := ⟨3, ![16, 256, 90]⟩

/-- Every position word is a spatial coordinate: below 128 as an unsigned word (so also non-negative as a signed one). -/
def InRange (v : IVec SV 32) : Prop := ∀ i : SV.Idx, (v i).toNat < 128

/-- Every entry of the feature maps is a real number. -/
def Finite (x : SX.Idx → EReal) : Prop := ∀ i : SX.Idx, ∃ r : ℝ, x i = (r : EReal)

/-- Sample `(b, c, r)`: the map `x[b, c]` at row `v[b, r, 0]`, column `v[b, r, 1]`. (The words are reduced
    modulo 128 only to make the function total; on words in range the reduction does nothing.) -/
def sampled (x : SX.Idx → EReal) (v : IVec SV 32) : SO.Idx → EReal :=
  fun j => x (ix4 (j 0) (j 1)
    ⟨(v (ix3 (j 0) (j 2) (0 : Fin 2))).toNat % 128, Nat.mod_lt _ (by decide)⟩
    ⟨(v (ix3 (j 0) (j 2) (1 : Fin 2))).toNat % 128, Nat.mod_lt _ (by decide)⟩)

/-- On words in range the sample is the map at the words themselves. -/
theorem sampled_apply (x : SX.Idx → EReal) (v : IVec SV 32) (hv : InRange v) (b : Fin 16) (c : Fin 256) (r : Fin 90) :
    sampled x v (ix3 b c r)
      = x (ix4 b c ⟨(v (ix3 b r (0 : Fin 2))).toNat, hv _⟩ ⟨(v (ix3 b r (1 : Fin 2))).toNat, hv _⟩) := by
  unfold sampled
  congr 1
  funext a
  match a with
  | ⟨0, _⟩ => rfl
  | ⟨1, _⟩ => rfl
  | ⟨2, _⟩ => exact Fin.ext (Nat.mod_eq_of_lt (hv _))
  | ⟨3, _⟩ => exact Fin.ext (Nat.mod_eq_of_lt (hv _))

end Cert.Sampler

end
-- ==== Proof.PreFacts.lean ====
/-
  What the precondition says of the two argument arrays: every feature-map entry is a real number and every
  position word lies in [0, 128).
-/
import proofs.«416523_j6837587935505_3_alg».proof.Pre_finite_inputs
import proofs.«416523_j6837587935505_3_alg».proof.Proof.Spec
import Idealize.ShloMosaic.Lib.ReduceAll
import Idealize.ShloMosaic.Lib.StableHlo.Predicate

noncomputable section

namespace Cert.Sampler

open Idealize.ShloMosaic Idealize.ShloMosaic.ValueIdx

open Idealize.ShloMosaic.StableHlo.Predicate in
/-- An extended real whose absolute value `max a (-a)` lies strictly below the value of the pattern
    `0x7F800000` (which is `+∞`) is a real number: neither infinity has a finite absolute value. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  simp only [Ideal.cmp, ofBool_eq_one_iff, decide_eq_true_eq] at h
  induction a using EReal.rec with
  | bot => simp at h
  | coe r => exact ⟨r, rfl⟩
  | top => simp at h

open Idealize.ShloMosaic.StableHlo.Predicate in
/-- A 32-bit word that is at least 0 and below 128 as a signed word has unsigned value below 128. -/
theorem toNat_lt_of_signed_range (w : BitVec 32) (h1 : IntOp.cmpi .sge w 0#32 = 1#1)
    (h2 : IntOp.cmpi .slt w 128#32 = 1#1) : w.toNat < 128 := by
  simp only [IntOp.cmpi, ofBool_eq_one_iff, BitVec.sle, BitVec.slt, decide_eq_true_eq] at h1 h2
  have e0 : (0#32 : BitVec 32).toInt = 0 := by decide
  have e128 : (128#32 : BitVec 32).toInt = 128 := by decide
  rw [e0] at h1
  rw [e128] at h2
  rw [BitVec.toInt_eq_toNat_cond] at h1 h2
  split at h1 <;> omega

/-- The precondition, all ones, gives finiteness of the maps and the range of the position words. -/
theorem pre_facts [Cert.Pre_finite_inputs.Facts] (x : FVec Ideal SX .f32) (v : IVec SV 32)
    (h : Cert.Pre_finite_inputs.fn (F := Ideal) x v = fun _ => 1#1) : Finite x ∧ InRange v := by
  haveI : Subsingleton Cert.Pre_finite_inputs.S_.Idx := ⟨fun a b => funext fun d => d.elim0⟩
  have h0 := congrFun h ValueIdx.ix0
  dsimp only [Cert.Pre_finite_inputs.fn] at h0
  obtain ⟨hx, hv⟩ := IntOp.andi_eq_one.1 h0
  constructor
  · intro i
    have e := Host.reduce_andi_all _ _ _ _ _ hx i
    rw [show ∀ (a b : FVec Ideal Cert.Pre_finite_inputs.S16x256x128x128 .f32) (j),
        cmpf CmpFPredicate.olt a b j = Ideal.cmp .olt (a j) (b j) from fun _ _ _ => rfl,
      StableHlo.Predicate.bcast_scalar _ Cert.Pre_finite_inputs.Facts.h_S_] at e
    exact real_of_abs_lt_inf (x i) e
  · intro i
    have e := Host.reduce_andi_all _ _ _ _ _ hv i
    obtain ⟨e1, e2⟩ := IntOp.andi_eq_one.1 e
    rw [show ∀ (p : CmpIPredicate) (a b : IVec Cert.Pre_finite_inputs.S16x90x2 32) (j),
        cmpi p a b j = IntOp.cmpi p (a j) (b j) from fun _ _ _ _ => rfl,
      StableHlo.Predicate.bcast_scalar _ Cert.Pre_finite_inputs.Facts.h_S_] at e1 e2
    exact toNat_lt_of_signed_range (v i) e1 e2

end Cert.Sampler

end
-- ==== Proof.RefValue.lean ====
/-
  The reference's result is the sampled map: its index normalisation (add 128 to a negative word) does nothing
  on words in [0, 128), the two index columns joined along the last axis give back (row, column), and the gather
  reads the map at that position, its clamp idle.
-/
import proofs.«416523_j6837587935505_3_alg».proof.Proof.Gen.ReferenceIdeal.Read
import proofs.«416523_j6837587935505_3_alg».proof.Proof.Spec
import Idealize.ShloMosaic.Lib.StableHlo.Predicate

noncomputable section

namespace Cert.Sampler

open Idealize.ShloMosaic Idealize.ShloMosaic.ValueIdx

section Pieces

open Cert.ReferenceIdeal Cert.ReferenceIdeal.Gen Cert.ReferenceIdeal.Read Idealize.ShloMosaic.StableHlo

/-- The gather read at result index `(b, c, r)`: batch `b`, channel `c`, and on the two spatial axes the two
    start-index words of `(b, r)`, read signed and clamped into `[0, 127]`. -/
private theorem gather_at {α : Type} (x : SX.Idx → α) (idx : IVec SV 32) (b : Fin 16) (c : Fin 256) (r : Fin 90) :
    Host.gather gather_S16x256x128x128_S16x90x2_S16x256x90_1_23_0_0_23_2_125611 x idx (ix3 b c r)
      = x (ix4 b c ⟨min (idx (ix3 b r (0 : Fin 2))).toInt.toNat 127, by omega⟩
          ⟨min (idx (ix3 b r (1 : Fin 2))).toInt.toNat 127, by omega⟩) := by
  -- axis 0 is the batching axis: the batch coordinate of the result index
  have A0 : gather_S16x256x128x128_S16x90x2_S16x256x90_1_23_0_0_23_2_125611.start (ix3 b c r) idx (0 : Fin 4) + gather_S16x256x128x128_S16x90x2_S16x256x90_1_23_0_0_23_2_125611.batchCoord (ix3 b c r) (0 : Fin 4)
      + gather_S16x256x128x128_S16x90x2_S16x256x90_1_23_0_0_23_2_125611.offCoord (ix3 b c r) (0 : Fin 4) = b.val := by
    rw [GatherDims.start_batching _ _ _ _ (by decide), GatherDims.offCoord_eq_zero _ _ _ (by decide)]
    unfold GatherDims.batchCoord
    rw [dif_pos (by decide), Nat.zero_add, Nat.add_zero]
    rfl
  -- axis 1 is the one offset axis: the channel coordinate of the result index
  have A1 : gather_S16x256x128x128_S16x90x2_S16x256x90_1_23_0_0_23_2_125611.start (ix3 b c r) idx (1 : Fin 4) + gather_S16x256x128x128_S16x90x2_S16x256x90_1_23_0_0_23_2_125611.batchCoord (ix3 b c r) (1 : Fin 4)
      + gather_S16x256x128x128_S16x90x2_S16x256x90_1_23_0_0_23_2_125611.offCoord (ix3 b c r) (1 : Fin 4) = c.val := by
    rw [GatherDims.batchCoord_eq_zero _ _ _ (by decide)]
    unfold GatherDims.start GatherDims.offCoord
    rw [dif_neg (by decide), dif_pos (by decide)]
    show 0 + 0 + c.val = c.val
    omega
  -- axes 2 and 3 are collapsed and carry the two components of the start index, clamped
  have A2 : gather_S16x256x128x128_S16x90x2_S16x256x90_1_23_0_0_23_2_125611.start (ix3 b c r) idx (2 : Fin 4) + gather_S16x256x128x128_S16x90x2_S16x256x90_1_23_0_0_23_2_125611.batchCoord (ix3 b c r) (2 : Fin 4)
      + gather_S16x256x128x128_S16x90x2_S16x256x90_1_23_0_0_23_2_125611.offCoord (ix3 b c r) (2 : Fin 4) = min (idx (ix3 b r (0 : Fin 2))).toInt.toNat 127 := by
    rw [GatherDims.batchCoord_eq_zero _ _ _ (by decide), GatherDims.offCoord_eq_zero _ _ _ (by decide)]
    unfold GatherDims.start
    rw [dif_pos (show (2 : Fin 4) ∈ gather_S16x256x128x128_S16x90x2_S16x256x90_1_23_0_0_23_2_125611.startIndexMap by decide)]
    have hsi : gather_S16x256x128x128_S16x90x2_S16x256x90_1_23_0_0_23_2_125611.siIdx (ix3 b c r)
        ⟨List.idxOf (2 : Fin 4) gather_S16x256x128x128_S16x90x2_S16x256x90_1_23_0_0_23_2_125611.startIndexMap, List.idxOf_lt_length_iff.2 (by decide)⟩
          = ix3 b r (0 : Fin 2) := by
      funext e; refine Fin.ext ?_
      match e with
      | ⟨0, _⟩ => rfl
      | ⟨1, _⟩ => rfl
      | ⟨2, _⟩ => rfl
    rw [hsi]
    rfl
  have A3 : gather_S16x256x128x128_S16x90x2_S16x256x90_1_23_0_0_23_2_125611.start (ix3 b c r) idx (3 : Fin 4) + gather_S16x256x128x128_S16x90x2_S16x256x90_1_23_0_0_23_2_125611.batchCoord (ix3 b c r) (3 : Fin 4)
      + gather_S16x256x128x128_S16x90x2_S16x256x90_1_23_0_0_23_2_125611.offCoord (ix3 b c r) (3 : Fin 4) = min (idx (ix3 b r (1 : Fin 2))).toInt.toNat 127 := by
    rw [GatherDims.batchCoord_eq_zero _ _ _ (by decide), GatherDims.offCoord_eq_zero _ _ _ (by decide)]
    unfold GatherDims.start
    rw [dif_pos (show (3 : Fin 4) ∈ gather_S16x256x128x128_S16x90x2_S16x256x90_1_23_0_0_23_2_125611.startIndexMap by decide)]
    have hsi : gather_S16x256x128x128_S16x90x2_S16x256x90_1_23_0_0_23_2_125611.siIdx (ix3 b c r)
        ⟨List.idxOf (3 : Fin 4) gather_S16x256x128x128_S16x90x2_S16x256x90_1_23_0_0_23_2_125611.startIndexMap, List.idxOf_lt_length_iff.2 (by decide)⟩
          = ix3 b r (1 : Fin 2) := by
      funext e; refine Fin.ext ?_
      match e with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact A0
  | ⟨1, _⟩ => exact A1
  | ⟨2, _⟩ => exact A2
  | ⟨3, _⟩ => exact A3

/-- A word below 128 is not negative as a signed word, so the normalisation (add 128 when negative) leaves it. -/
private theorem normalise_word (w : BitVec 32) (hw : w.toNat < 128) :
    Scalar.select (IntOp.cmpi .slt w 0#32) (IntOp.addi w 128#32) w = w := by
  have h : IntOp.cmpi .slt w 0#32 = 0#1 := by
    apply eq_zero_of_ne_one
    rw [Predicate.slt_iff_toNat (by omega) (by decide)]
    simp
  rw [h, select_zero]

/-- A word below 128, read signed and clamped into `[0, 127]`, is its unsigned value. -/
private theorem clamp_word (w : BitVec 32) (hw : w.toNat < 128) : min w.toInt.toNat 127 = w.toNat := by
  rw [Predicate.toInt_eq_toNat_of_lt (by omega), Int.toNat_natCast]
  omega

/-- The normalised row word of `(b, r)` is the row word `v[b, r, 0]`. -/
private theorem v8_at (v : IVec SV 32) (hv : InRange v) (b : Fin 16) (r : Fin 90) :
    val_main_v8 (F := Ideal) v (ix2 b r) = v (ix3 b r (0 : Fin 2)) := by
  have h1 : val_main_v1 (F := Ideal) v (ix2 b r) = v (ix3 b r (0 : Fin 2)) := by
    rw [val_main_v1_apply, val_main_v0_apply]
    congr 1
    funext a; refine Fin.ext ?_
    have hb := b.isLt; have hr := r.isLt
    match a with
    | ⟨0, _⟩ => show (b.val * 90 + r.val) / 90 = b.val; omega
    | ⟨1, _⟩ => show (b.val * 90 + r.val) / 1 % 90 = r.val; omega
    | ⟨2, _⟩ => rfl
  rw [val_main_v8_apply, val_main_v5_apply, val_main_v7_apply, val_main_v4_apply, val_main_v6_apply,
    val_main_c_apply, val_main_c_0_apply, h1]
  exact normalise_word _ (hv _)

/-- The normalised column word of `(b, r)` is the column word `v[b, r, 1]`. -/
private theorem v13_at (v : IVec SV 32) (hv : InRange v) (b : Fin 16) (r : Fin 90) :
    val_main_v13 (F := Ideal) v (ix2 b r) = v (ix3 b r (1 : Fin 2)) := by
  have h3 : val_main_v3 (F := Ideal) v (ix2 b r) = v (ix3 b r (1 : Fin 2)) := by
    rw [val_main_v3_apply, val_main_v2_apply]
    congr 1
    funext a; refine Fin.ext ?_
    have hb := b.isLt; have hr := r.isLt
    match a with
    | ⟨0, _⟩ => show (b.val * 90 + r.val) / 90 = b.val; omega
    | ⟨1, _⟩ => show (b.val * 90 + r.val) / 1 % 90 = r.val; omega
    | ⟨2, _⟩ => rfl
  rw [val_main_v13_apply, val_main_v10_apply, val_main_v12_apply, val_main_v9_apply, val_main_v11_apply,
    val_main_c_1_apply, val_main_c_2_apply, h3]
  exact normalise_word _ (hv _)

/-- The joined index array at `(b, r, 0)` is the normalised row word of `(b, r)`. -/
private theorem v16_at0 (v : IVec SV 32) (b : Fin 16) (r : Fin 90) :
    val_main_v16 (F := Ideal) v (ix3 b r (0 : Fin 2)) = val_main_v8 (F := Ideal) v (ix2 b r) := by
  unfold val_main_v16
  rw [concatenate_pair_apply_left (t := S16x90x2) (s₁ := S16x90x1) (s₂ := S16x90x1) (2 : Fin 3) _ _ _ (ix3 b r (0 : Fin 2)) rfl (ix3 b r (0 : Fin 1))
    (fun a => match a with | ⟨0, _⟩ => rfl | ⟨1, _⟩ => rfl | ⟨2, _⟩ => rfl)]
  rw [val_main_v14_apply]
  congr 1
  funext a
  match a with
  | ⟨0, _⟩ => rfl
  | ⟨1, _⟩ => rfl

/-- The joined index array at `(b, r, 1)` is the normalised column word of `(b, r)`. -/
private theorem v16_at1 (v : IVec SV 32) (b : Fin 16) (r : Fin 90) :
    val_main_v16 (F := Ideal) v (ix3 b r (1 : Fin 2)) = val_main_v13 (F := Ideal) v (ix2 b r) := by
  unfold val_main_v16
  rw [concatenate_pair_apply_right (t := S16x90x2) (s₁ := S16x90x1) (s₂ := S16x90x1) (2 : Fin 3) _ _ _ (ix3 b r (1 : Fin 2)) rfl rfl (ix3 b r (0 : Fin 1))
    (fun a ha => match a, ha with
      | ⟨0, _⟩, _ => rfl
      | ⟨1, _⟩, _ => rfl
      | ⟨2, _⟩, ha => absurd rfl ha)
    rfl]
  rw [val_main_v15_apply]
  congr 1
  funext a
  match a with
  | ⟨0, _⟩ => rfl
  | ⟨1, _⟩ => rfl

end Pieces

/-- The reference's last stage, on position words in range, is the sampled map. -/
theorem ref_value (x : FVec Ideal SX .f32) (v : IVec SV 32) (hv : InRange v) :
    Cert.ReferenceIdeal.Read.val_main_v17 (F := Ideal) x v = sampled x v := by
  funext j
  obtain ⟨b, c, r, rfl⟩ : ∃ b c r, j = ix3 b c r := ⟨j 0, j 1, j 2, eq_ix3 j⟩
  rw [sampled_apply x v hv]
  unfold Cert.ReferenceIdeal.Read.val_main_v17
  rw [gather_at]
  congr 1
  funext a
  match a with
  | ⟨0, _⟩ => rfl
  | ⟨1, _⟩ => rfl
  | ⟨2, _⟩ =>
    refine Fin.ext ?_
    show min (Cert.ReferenceIdeal.Read.val_main_v16 (F := Ideal) v (ix3 b r (0 : Fin 2))).toInt.toNat 127
      = (v (ix3 b r (0 : Fin 2))).toNat
    rw [v16_at0, v8_at v hv]
    exact clamp_word _ (hv _)
  | ⟨3, _⟩ =>
    refine Fin.ext ?_
    show min (Cert.ReferenceIdeal.Read.val_main_v16 (F := Ideal) v (ix3 b r (1 : Fin 2))).toInt.toNat 127
      = (v (ix3 b r (1 : Fin 2))).toNat
    rw [v16_at1, v13_at v hv]
    exact clamp_word _ (hv _)

end Cert.Sampler

end
-- ==== Proof.OneHot.lean ====
/-
  One chunk of the kernel's sweep. The chunk's 1024 columns of the map block are multiplied with a one-hot
  matrix whose column `r` has its one in the row equal to the flat position of ray `r` minus the chunk's start;
  the block is split as high part + remainder, and at the ideal instance the high part is the entry itself and
  the remainder `x − x = 0` for a real `x`. So the chunk adds the entry at the flat position when that position
  lies in the chunk, and nothing otherwise.
-/
import proofs.«416523_j6837587935505_3_alg».proof.Proof.Gen.KernelIdeal.Skeleton
import proofs.«416523_j6837587935505_3_alg».proof.Proof.Spec
import Idealize.ShloMosaic.PureOps.Ideal.Laws
import Idealize.ShloMosaic.Lib.Pipeline.Value
import Idealize.ShloMosaic.Lib.ValueLayout

noncomputable section

namespace Cert.Sampler

open Idealize.ShloMosaic Idealize.ShloMosaic.ValueIdx Cert.KernelIdeal Cert.KernelIdeal.Gen

/-! ## The product's operand indices -/

/-- Axis 0 of the left operand's index is the result's row. -/
theorem lhs_dot_0 (j : S256x128.Idx) (k : dot_S256x1024_S1024x128_S256x128_1_0_0_1_n_n.contr.Idx) :
    (dot_S256x1024_S1024x128_S256x128_1_0_0_1_n_n.lhsIdx j k 0).val = (j 0).val := by
  simp [DotDims.lhsIdx, dot_S256x1024_S1024x128_S256x128_1_0_0_1_n_n]; rfl

/-- Axis 1 of the left operand's index is the contraction position. -/
theorem lhs_dot_1 (j : S256x128.Idx) (k : dot_S256x1024_S1024x128_S256x128_1_0_0_1_n_n.contr.Idx) :
    (dot_S256x1024_S1024x128_S256x128_1_0_0_1_n_n.lhsIdx j k 1).val = (k ⟨0, by decide⟩).val :=
  DotDims.lhsIdx_val_of_single _ rfl j k

/-- Axis 0 of the right operand's index is the contraction position. -/
theorem rhs_dot_0 (j : S256x128.Idx) (k : dot_S256x1024_S1024x128_S256x128_1_0_0_1_n_n.contr.Idx) :
    (dot_S256x1024_S1024x128_S256x128_1_0_0_1_n_n.rhsIdx j k 0).val = (k ⟨0, by decide⟩).val :=
  DotDims.rhsIdx_val_of_single _ rfl j k

/-- Axis 1 of the right operand's index is the result's column. -/
theorem rhs_dot_1 (j : S256x128.Idx) (k : dot_S256x1024_S1024x128_S256x128_1_0_0_1_n_n.contr.Idx) :
    (dot_S256x1024_S1024x128_S256x128_1_0_0_1_n_n.rhsIdx j k 1).val = (j 1).val := by
  simp [DotDims.rhsIdx, dot_S256x1024_S1024x128_S256x128_1_0_0_1_n_n]; rfl

/-- A [256,1024] by [1024,128] product into the zero block, at entry `(c, r)`: the sum over the 1024 contracted
    positions of the products of the entries. -/
theorem matmul_zero_apply {φ₁ φ₂ : FTy} (A : FVec Ideal S256x1024 φ₁) (B : FVec Ideal S1024x128 φ₂) (c : Fin 256) (r : Fin 128) :
    matmul dot_S256x1024_S1024x128_S256x128_1_0_0_1_n_n none A B (constant (F := Ideal) S256x128 .f32 0x00000000#32) (ix2 c r)
      = ∑ j : Fin 1024, A (ix2 c j) * B (ix2 j r) := by
  show FloatOps.matmul _ none A B _ (ix2 c r) = _
  rw [Ideal.matmul_constant_zero_apply,
    ← Equiv.sum_comp (contrEquiv1 dot_S256x1024_S1024x128_S256x128_1_0_0_1_n_n 1024 rfl rfl).symm]
  refine Finset.sum_congr rfl fun j _ => ?_
  have cj := contrEquiv1_symm_val dot_S256x1024_S1024x128_S256x128_1_0_0_1_n_n 1024 rfl rfl j
  have l : dot_S256x1024_S1024x128_S256x128_1_0_0_1_n_n.lhsIdx (ix2 c r)
      ((contrEquiv1 dot_S256x1024_S1024x128_S256x128_1_0_0_1_n_n 1024 rfl rfl).symm j) = ix2 c j := by
    funext ax; apply Fin.ext
    match ax with
    | ⟨0, _⟩ => exact lhs_dot_0 _ _
    | ⟨1, _⟩ => exact (lhs_dot_1 _ _).trans cj
  have r' : dot_S256x1024_S1024x128_S256x128_1_0_0_1_n_n.rhsIdx (ix2 c r)
      ((contrEquiv1 dot_S256x1024_S1024x128_S256x128_1_0_0_1_n_n 1024 rfl rfl).symm j) = ix2 j r := by
    funext ax; apply Fin.ext
    match ax with
    | ⟨0, _⟩ => exact (rhs_dot_0 _ _).trans cj
    | ⟨1, _⟩ => exact rhs_dot_1 _ _
  rw [l, r']

/-! ## The layout operations at an index -/

/-- The [1,1,128] row of position words viewed as [128]: entry `r` is entry `(0, 0, r)`. -/
theorem cast_words_apply {α : Type} (x : S1x1x128.Idx → α) (h : S1x1x128.ShapeCasts S128) (r : Fin 128) :
    shapeCast S128 x h (ix1 r) = x (ix3 (0 : Fin 1) (0 : Fin 1) r) :=
  shapeCast_apply x h _ _ (by
    rw [Shape.rowMajor_val_three, Shape.rowMajor_val_one]
    show (0 * 1 + 0) * 128 + r.val = r.val
    omega)

/-! ## The one-hot factor -/

/-- The chunk's start as a word: the loop variable of trip `kv` (from 0 by steps of 1) times 1024 is the word of
    `1024·kv`. -/
theorem start_word (kv : ℕ) (hk : kv < 16) :
    Scalar.muli (Scf.iv 0#32 1#32 kv) 1024#32 = BitVec.ofNat 32 (1024 * kv) := by
  unfold Scalar.muli IntOp.muli Scf.iv
  bv_omega

/-- For a row `j < 1024`, a chunk `kv < 16` and a flat position `f < 16384`, the word of `j` is the word of `f`
    minus the word of the chunk's start exactly when `j + 1024·kv = f`: nothing wraps. -/
theorem hot_word_iff (f kv : ℕ) (hk : kv < 16) (hf : f < 16384) (j : Fin 1024) :
    BitVec.ofNat 32 j.val = BitVec.ofNat 32 f - BitVec.ofNat 32 (1024 * kv) ↔ j.val + 1024 * kv = f := by
  have hj := j.isLt
  constructor
  · intro h; bv_omega
  · intro h; bv_omega

/-- The comparison bit, widened to a word and read as a signed integer, is 1 where the words agree and 0 elsewhere. -/
theorem hot_apply (w : BitVec 32) (j : ℕ) :
    FloatOps.sitofp (F := Ideal) .f32 ((IntOp.cmpi .eq (BitVec.ofNat 32 j) w).setWidth 32)
      = if BitVec.ofNat 32 j = w then (1 : EReal) else 0 := by
  show ((((IntOp.cmpi .eq (BitVec.ofNat 32 j) w).setWidth 32).toInt : ℝ) : EReal) = _
  unfold IntOp.cmpi
  by_cases h : BitVec.ofNat 32 j = w
  · have hb : (BitVec.ofNat 32 j == w) = true := beq_iff_eq.mpr h
    have e : ((BitVec.ofBool true).setWidth 32).toInt = 1 := by decide
    rw [if_pos h, hb, e]; norm_num
  · have hb : (BitVec.ofNat 32 j == w) = false := beq_eq_false_iff_ne.mpr h
    have e : ((BitVec.ofBool false).setWidth 32).toInt = 0 := by decide
    rw [if_neg h, hb, e]; norm_num

/-! ## The pieces of the payload at an index -/

/-- A word comparison at an index compares the entries. -/
theorem cmpi_at {s : Shape} {w : ℕ} (p : CmpIPredicate) (x y : IVec s w) (i : s.Idx) :
    cmpi p x y i = IntOp.cmpi p (x i) (y i) := rfl

/-- A word difference at an index is the difference of the entries. -/
theorem subi_at {s : Shape} {w : ℕ} (x y : IVec s w) (i : s.Idx) : subi x y i = x i - y i := rfl

/-- The row counter of a [1024,128] block at `(j, r)` is the word of `j`. -/
theorem iota_rows_apply (h : S1024x128.Iotas .tc 32 [0]) (j : Fin 1024) (r : Fin 128) :
    iota .tc S1024x128 32 [0] h (ix2 j r) = BitVec.ofNat 32 j.val :=
  iota_single_apply .tc S1024x128 32 0 h (ix2 j r)

/-- Chunk `k` at entry `(c, r)` as two sums over the chunk's 1024 columns: the entries, and the remainders
    entry − entry, each against the one-hot column of ray `r`. -/
theorem chunk_sums (v0 : Vec Ideal S1x1x128 .i32) (k : Fin k0_t1_loop.trips) (acc : FVec Ideal S256x128 .f32)
    (v11 : Vec Ideal S1x256x1024 .f32) (c : Fin 256) (r : Fin 128) :
    k0_pay2 (F := Ideal) v0 k acc v11 (ix2 c r)
      = acc (ix2 c r) + ((∑ j : Fin 1024, v11 (ix3 (0 : Fin 1) c j) *
            (if BitVec.ofNat 32 j.val = v0 (ix3 (0 : Fin 1) (0 : Fin 1) r) - Scalar.muli (Scf.iv 0#32 1#32 k.val) 1024#32
              then (1 : EReal) else 0))
          + ∑ j : Fin 1024, (v11 (ix3 (0 : Fin 1) c j) - v11 (ix3 (0 : Fin 1) c j)) *
            (if BitVec.ofNat 32 j.val = v0 (ix3 (0 : Fin 1) (0 : Fin 1) r) - Scalar.muli (Scf.iv 0#32 1#32 k.val) 1024#32
              then (1 : EReal) else 0)) := by
  unfold k0_pay2
  dsimp only
  rw [addf_apply, addf_apply, matmul_zero_apply, matmul_zero_apply]
  simp only [truncf_apply, extf_apply, subf_apply, sitofp_apply, extui_apply, shapeCast_1ab_ab_apply, cmpi_at,
    broadcastTo_1b_ab_apply, shapeCast_a_1a_apply, subi_at, broadcast_apply, cast_words_apply]
  refine congrArg (acc (ix2 c r) + ·) (congrArg₂ (· + ·) (Finset.sum_congr rfl fun j _ => ?_)
    (Finset.sum_congr rfl fun j _ => ?_)) <;> rw [iota_rows_apply, hot_apply]

/-! ## The chunk -/

/-- A sum over the 1024 columns against the indicator of `j + 1024·kv = f` picks the term at `f − 1024·kv` when `f`
    lies in the chunk, and is zero otherwise. -/
theorem sum_hot (x : Fin 1024 → EReal) (f kv : ℕ) :
    (∑ j : Fin 1024, x j * (if j.val + 1024 * kv = f then (1 : EReal) else 0))
      = if h : 1024 * kv ≤ f ∧ f < 1024 * kv + 1024 then x ⟨f - 1024 * kv, by omega⟩ else 0 := by
  by_cases h : 1024 * kv ≤ f ∧ f < 1024 * kv + 1024
  · rw [dif_pos h, Finset.sum_eq_single_of_mem (⟨f - 1024 * kv, by omega⟩ : Fin 1024) (Finset.mem_univ _)]
    · rw [if_pos (by show f - 1024 * kv + 1024 * kv = f; omega), mul_one]
    · intro b _ hb
      rw [if_neg, mul_zero]
      intro e
      exact hb (Fin.ext (by show b.val = f - 1024 * kv; omega))
  · rw [dif_neg h]
    refine Finset.sum_eq_zero fun j _ => ?_
    have hj := j.isLt
    rw [if_neg (by omega), mul_zero]

/-- Chunk `k` of the sweep at entry `(c, r)`, ray `r`'s flat position being `f < 16384`: the carried sum plus
    the chunk's entry at column `f − 1024·k` when `f` lies in `[1024·k, 1024·k + 1024)`, plus nothing otherwise. -/
theorem chunk_apply (v0 : Vec Ideal S1x1x128 .i32) (k : Fin k0_t1_loop.trips) (acc : FVec Ideal S256x128 .f32)
    (v11 : Vec Ideal S1x256x1024 .f32) (hfin : ∀ i, ∃ r : ℝ, v11 i = (r : EReal))
    (c : Fin 256) (r : Fin 128) (f : ℕ) (hf : f < 16384)
    (hw : v0 (ix3 (0 : Fin 1) (0 : Fin 1) r) = BitVec.ofNat 32 f) :
    k0_pay2 (F := Ideal) v0 k acc v11 (ix2 c r)
      = acc (ix2 c r) + (if h : 1024 * k.val ≤ f ∧ f < 1024 * k.val + 1024
          then v11 (ix3 (0 : Fin 1) c ⟨f - 1024 * k.val, by omega⟩) else 0) := by
  have hk : k.val < 16 := lt_of_lt_of_le k.isLt k0_t1_abs.2.1
  rw [chunk_sums, hw, start_word k.val hk]
  simp only [hot_word_iff f k.val hk hf]
  have hz : ∀ j : Fin 1024, v11 (ix3 (0 : Fin 1) c j) - v11 (ix3 (0 : Fin 1) c j) = 0 := fun j => by
    obtain ⟨y, hy⟩ := hfin (ix3 (0 : Fin 1) c j)
    rw [hy, ← EReal.coe_sub, sub_self, EReal.coe_zero]
  simp only [hz, zero_mul, Finset.sum_const_zero, add_zero]
  rw [sum_hot (fun j => v11 (ix3 (0 : Fin 1) c j)) f k.val]

end Cert.Sampler

end
-- ==== Proof.KernelTrips.lean ====
/-
  The kernel body at one grid point, read as a value. The body's one store writes the carried sum after the
  sixteenth chunk; the sum before chunk `k`, at entry `(c, r)` whose ray has flat position `f`, is the map
  block's entry `(c, f)` once a chunk holding column `f` has passed (`f < 1024 · k`) and zero before: each chunk
  adds that entry exactly when `f` lies in it, and the chunks `[1024 · k, 1024 · k + 1024)` partition `[0, 16384)`.
-/
import proofs.«416523_j6837587935505_3_alg».proof.Proof.Gen.KernelIdeal.Frame
import proofs.«416523_j6837587935505_3_alg».proof.Proof.Spec
import proofs.«416523_j6837587935505_3_alg».proof.Proof.OneHot
import Idealize.ShloMosaic.Lib.Pipeline.Value

set_option maxRecDepth 16384

noncomputable section

namespace Cert.Sampler

open Idealize.ShloMosaic Idealize.ShloMosaic.TcCoe Idealize.ShloMosaic.ValueIdx
open Idealize.SL.Sem
open Cert.KernelIdeal Cert.KernelIdeal.Gen

/-- The sweep has sixteen chunks. -/
theorem trips_eq : k0_t1_loop.trips = 16 := by decide

section AnyInstance
variable {F : FTy → Type} [FloatOps F]

/-- What the body leaves in its output block: the reshaped carried sum after the last chunk, the sweep started
    from the zero block, the position lanes and the map block as the staging buffers hold them. -/
theorem body_out_eq (c : Dev nD) (i : grid0.Coords) (arg1 : Memref sig .tc .vmem S1x256x16384 .f32) (harg1 : arg1.IsWhole)
    (arg2 : Memref sig .tc .vmem S1x1x128 .i32) (harg2 : arg2.IsWhole) (arg3 : Memref sig .tc .vmem S1x256x128 .f32) (harg3 : arg3.IsWhole)
    (x0 : Vec F S1x256x16384 .f32) (x1 : Vec F S1x1x128 .i32) :
    out0_A_2 (F := F) c i arg1 harg1 arg2 harg2 arg3 harg3 x0 x1
      = k0_pay3 (st_k0_t1 (F := F) Variants.none c none i arg1 harg1 arg2 harg2 arg3 harg3 x1 (harg1.unread x0)
          (k0_pay1 (F := F)) k0_t1_loop.trips) := by
  have hz3 : (![0, 0, 0] : Fin 3 → Nat) = fun _ => 0 := by
    funext a; match a with | ⟨0, _⟩ => rfl | ⟨1, _⟩ => rfl | ⟨2, _⟩ => rfl
  unfold out0_A_2
  rw [View.read_writes_eq_canon _ _ _ (cover0_A_2 c i arg1 harg1 arg2 harg2 arg3 harg3 x0 x1)]
  unfold kernelRun0_A
  dsimp only
  sl_unfold_words
  rw [View.canon_unit_zero (S := S1x256x128) hz3]
  simp only [View.readAt_eq_ld, harg2.read_unread, View.ld_unit_zero (S := S1x1x128) hz3]

/-- One chunk of the sweep: the chunk's arithmetic on the carried sum and the map block's columns
    `[1024 · k, 1024 · k + 1024)`. -/
theorem chunk_eq (𝒱 : Variants) (c : Dev nD) (bd : Option 𝒱.V) (i : grid0.Coords) (arg1 : Memref sig .tc .vmem S1x256x16384 .f32) (harg1 : arg1.IsWhole)
    (arg2 : Memref sig .tc .vmem S1x1x128 .i32) (harg2 : arg2.IsWhole) (arg3 : Memref sig .tc .vmem S1x256x128 .f32) (harg3 : arg3.IsWhole)
    (v0 : Vec F S1x1x128 .i32) (X : BufTy.Contents (Elt F) arg1.view.ty) (k : Fin k0_t1_loop.trips) (acc : FVec F S256x128 .f32) :
    tripR_k0_t1 (F := F) 𝒱 c bd i arg1 harg1 arg2 harg2 arg3 harg3 v0 X k acc
      = k0_pay2 v0 k acc (View.ld (arg1.view.read (Elt F) X) (Rect.unit (s := S1x256x16384) (k0_off1 k) S1x256x1024.size (k0_off1_inb k))) := by
  unfold tripR_k0_t1 trip_k0_t1
  dsimp only
  rfl

end AnyInstance

/-- Column `j` of chunk `k` of a map block is the block's column `1024 · k + j`. -/
theorem chunk_cols_apply (x0 : Vec Ideal S1x256x16384 .f32) (k : Fin k0_t1_loop.trips) (cc : Fin 256) (j : Fin 1024) :
    View.ld x0 (Rect.unit (s := S1x256x16384) (k0_off1 k) S1x256x1024.size (k0_off1_inb k)) (ix3 (0 : Fin 1) cc j)
      = x0 (ix3 (0 : Fin 1) cc ⟨1024 * k.val + j.val, by
          have h16 : k.val < 16 := Nat.lt_of_lt_of_le k.isLt (le_of_eq trips_eq)
          omega⟩) := by
  have hoff := k0_off1_eq k
  refine congrArg x0 (funext fun a => Fin.ext ?_)
  match a with
  | ⟨0, _⟩ => show k0_off1 k 0 + 1 * (0 : ℕ) = 0; rw [hoff]; rfl
  | ⟨1, _⟩ => show k0_off1 k 1 + 1 * cc.val = cc.val; rw [hoff]; show 0 + 1 * cc.val = cc.val; omega
  | ⟨2, _⟩ => show k0_off1 k 2 + 1 * j.val = 1024 * k.val + j.val; rw [hoff]; show 1024 * k.val + 1 * j.val = 1024 * k.val + j.val; omega

/-- The sweep started from zero is zero everywhere. -/
theorem sweep_start_apply (cc : Fin 256) (r : Fin 128) : k0_pay1 (F := Ideal) (ix2 cc r) = 0 := by
  unfold k0_pay1
  exact Ideal.ofBits_zero_f32

/-- THE SWEEP'S INVARIANT. Before chunk `k` the carried sum at `(c, r)`, ray `r`'s flat position being `f`, is the
    block's entry `(c, f)` if a chunk holding column `f` has passed, and zero if not. -/
theorem sweep_apply (c : Dev nD) (i : grid0.Coords) (arg1 : Memref sig .tc .vmem S1x256x16384 .f32) (harg1 : arg1.IsWhole)
    (arg2 : Memref sig .tc .vmem S1x1x128 .i32) (harg2 : arg2.IsWhole) (arg3 : Memref sig .tc .vmem S1x256x128 .f32) (harg3 : arg3.IsWhole)
    (x0 : Vec Ideal S1x256x16384 .f32) (x1 : Vec Ideal S1x1x128 .i32) (hfin : ∀ j, ∃ q : ℝ, x0 j = (q : EReal))
    (cc : Fin 256) (r : Fin 128) (f : ℕ) (hf : f < 16384) (hw : x1 (ix3 (0 : Fin 1) (0 : Fin 1) r) = BitVec.ofNat 32 f) :
    ∀ k : ℕ, k ≤ 16 →
      st_k0_t1 (F := Ideal) Variants.none c none i arg1 harg1 arg2 harg2 arg3 harg3 x1 (harg1.unread x0) (k0_pay1 (F := Ideal)) k (ix2 cc r)
        = if f < 1024 * k then x0 (ix3 (0 : Fin 1) cc ⟨f, hf⟩) else 0 := by
  intro k
  induction k with
  | zero =>
    intro _
    rw [if_neg (by omega)]
    exact sweep_start_apply cc r
  | succ k ih =>
    intro hk
    have hlt : k < k0_t1_loop.trips := by rw [trips_eq]; omega
    have e : st_k0_t1 (F := Ideal) Variants.none c none i arg1 harg1 arg2 harg2 arg3 harg3 x1 (harg1.unread x0) (k0_pay1 (F := Ideal)) (k + 1)
        = tripR_k0_t1 (F := Ideal) Variants.none c none i arg1 harg1 arg2 harg2 arg3 harg3 x1 (harg1.unread x0) ⟨k, hlt⟩
            (st_k0_t1 (F := Ideal) Variants.none c none i arg1 harg1 arg2 harg2 arg3 harg3 x1 (harg1.unread x0) (k0_pay1 (F := Ideal)) k) :=
      st_k0_t1_succ (F := Ideal) Variants.none c none i arg1 harg1 arg2 harg2 arg3 harg3 x1 (harg1.unread x0) (k0_pay1 (F := Ideal)) ⟨k, hlt⟩
    rw [e, chunk_eq, harg1.read_unread]
    refine (chunk_apply x1 ⟨k, hlt⟩ _
      (View.ld x0 (Rect.unit (s := S1x256x16384) (k0_off1 ⟨k, hlt⟩) S1x256x1024.size (k0_off1_inb ⟨k, hlt⟩)))
      (fun j => hfin _) cc r f hf hw).trans ?_
    rw [ih (by omega)]
    dsimp only
    by_cases h1 : f < 1024 * k
    · rw [if_pos h1, dif_neg (by omega), if_pos (by omega), add_zero]
    · by_cases h2 : f < 1024 * k + 1024
      · rw [if_neg h1, dif_pos ⟨by omega, h2⟩, if_pos (by omega), zero_add, chunk_cols_apply]
        exact congrArg (fun s => x0 (ix3 (0 : Fin 1) cc s)) (Fin.ext (by show 1024 * k + (f - 1024 * k) = f; omega))
      · rw [if_neg h1, dif_neg (by omega), if_neg (by omega), add_zero]

/-- THE BODY AT ONE POINT. The output block's entry `(0, c, r)`, ray `r`'s flat position being `f < 16384`, is the
    map block's entry `(0, c, f)`. -/
theorem body_apply (c : Dev nD) (i : grid0.Coords) (arg1 : Memref sig .tc .vmem S1x256x16384 .f32) (harg1 : arg1.IsWhole)
    (arg2 : Memref sig .tc .vmem S1x1x128 .i32) (harg2 : arg2.IsWhole) (arg3 : Memref sig .tc .vmem S1x256x128 .f32) (harg3 : arg3.IsWhole)
    (x0 : Vec Ideal S1x256x16384 .f32) (x1 : Vec Ideal S1x1x128 .i32) (hfin : ∀ j, ∃ q : ℝ, x0 j = (q : EReal))
    (cc : Fin 256) (r : Fin 128) (f : ℕ) (hf : f < 16384) (hw : x1 (ix3 (0 : Fin 1) (0 : Fin 1) r) = BitVec.ofNat 32 f) :
    out0_A_2 (F := Ideal) c i arg1 harg1 arg2 harg2 arg3 harg3 x0 x1 (ix3 (0 : Fin 1) cc r) = x0 (ix3 (0 : Fin 1) cc ⟨f, hf⟩) := by
  rw [body_out_eq]
  unfold k0_pay3
  refine (shapeCast_apply _ shapeCasts_S256x128_S1x256x128 (ix3 (0 : Fin 1) cc r) (ix2 cc r) (by
    rw [Shape.rowMajor_val_three, Shape.rowMajor_val_two]
    show cc.val * 128 + r.val = ((0 : ℕ) * 256 + cc.val) * 128 + r.val
    omega)).trans ?_
  rw [trips_eq, sweep_apply c i arg1 harg1 arg2 harg2 arg3 harg3 x0 x1 hfin cc r f hf hw 16 (le_refl _), if_pos (by omega)]

end Cert.Sampler

end
-- ==== Proof.KernelHost.lean ====
/-
  What the region finds in its two input arrays. The first is the feature maps with the two spatial axes
  flattened row-major: entry `(b, c, s)` is `x[b, c, s / 128, s % 128]`. The second is the flat positions
  `128 · row + column` of the rays, padded from 90 to 128 lanes; on a real ray's lane, for position words in
  [0, 128), that word is the number `128 · row + column` itself (no wrap-around).
-/
import proofs.«416523_j6837587935505_3_alg».proof.Proof.Gen.KernelIdeal.Frame
import proofs.«416523_j6837587935505_3_alg».proof.Proof.Spec
import Idealize.ShloMosaic.Lib.KernelVsHost
import Idealize.ShloMosaic.Lib.Pipeline.Value
import Idealize.ShloMosaic.Lib.StableHlo.Run

set_option maxRecDepth 16384

noncomputable section

namespace Cert.Sampler

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The flattened maps name the launched maps reshaped: the two spatial axes joined row-major. -/
theorem maps_eq (c : Dev nD) : (V m c main_v0 : S16x256x16384.Idx → EReal)
    = shapeCast S16x256x16384 (m ((c.tc : Thread nD τ).loc main_arg0)) shapeCasts_S16x256x128x128_S16x256x16384 := by
  dsimp only [Gen.V, Gen.V0]
  simp only [Gen.hostOps0, Gen.hostOps0_1, Gen.hostOps0_2, List.flatten_cons, List.flatten_nil, List.append_nil, List.cons_append, List.nil_append]
  after_results
  rfl

/-- The padded flat positions as a function of the position words: `128 · row + column` on 90 lanes, padded with
    the all-ones word to 128 lanes, with a unit axis inserted. -/
def flatOf (v : IVec S16x90x2 32) : IVec S16x1x128 32 :=
  shapeCast S16x1x128
    (pad S16x128 ![0, 0] ![0, 38] ![0, 0]
      (addi
        (muli (shapeCast S16x90 (extractStridedSlice S16x90x1 ![0, 0, 0] v slices_S16x90x2_S16x90x1_0_0_0) shapeCasts_S16x90x1_S16x90)
          (broadcastInDim S16x90 ![] bcast_S_S16x90 (constantI S_ 32 128#32)))
        (shapeCast S16x90 (extractStridedSlice S16x90x1 ![0, 0, 1] v slices_S16x90x2_S16x90x1_0_0_1) shapeCasts_S16x90x1_S16x90))
      (id (constantI S_ 32 4294967295#32)) pads_S16x90_S16x128_000_0380 h_S_)
    shapeCasts_S16x128_S16x1x128

/-- The second input array is that function of the launched position words. -/
theorem flat_eq (c : Dev nD) : (V m c main_v9 : S16x1x128.Idx → BitVec 32)
    = flatOf (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

/-- The reshaped maps at `(b, c, s)`: the map at row `s / 128`, column `s % 128`. -/
theorem mapsOf_apply (x : S16x256x128x128.Idx → EReal) (b : Fin 16) (cc : Fin 256) (s : Fin 16384) :
    shapeCast S16x256x16384 x shapeCasts_S16x256x128x128_S16x256x16384 (ix3 b cc s)
      = x (ix4 b cc (⟨s.val / 128, by omega⟩ : Fin 128) (⟨s.val % 128, Nat.mod_lt _ (by decide)⟩ : Fin 128)) := by
  refine shapeCast_apply x shapeCasts_S16x256x128x128_S16x256x16384 (ix3 b cc s) _ ?_
  rw [Shape.rowMajor_val_four, Shape.rowMajor_val_three]
  show ((b.val * 256 + cc.val) * 128 + s.val / 128) * 128 + s.val % 128 = (b.val * 256 + cc.val) * 16384 + s.val
  omega

/-- Coordinate `k` of the position words, sliced out and flattened to `[batch, ray]`, at `(b, r)`: the word `v[b, r, k]`. -/
theorem coord_apply (v : IVec S16x90x2 32) (k : Fin 2) (h : S16x90x2.Slices ![0, 0, k.val] S16x90x1) (b : Fin 16) (r : Fin 90) :
    shapeCast S16x90 (extractStridedSlice S16x90x1 ![0, 0, k.val] v h) shapeCasts_S16x90x1_S16x90 (ix2 b r)
      = v (ix3 b r k) := by
  refine (shapeCast_apply _ shapeCasts_S16x90x1_S16x90 (ix2 b r) (ix3 b r (0 : Fin 1)) ?_).trans ?_
  · rw [Shape.rowMajor_val_three, Shape.rowMajor_val_two]
    show (b.val * 90 + r.val) * 1 + 0 = b.val * 90 + r.val
    omega
  refine extractStridedSlice_apply ![0, 0, k.val] v h (ix3 b r (0 : Fin 1)) (ix3 b r k) ?_
  intro a
  match a with
  | ⟨0, _⟩ => show b.val = 0 + b.val; omega
  | ⟨1, _⟩ => show r.val = 0 + r.val; omega
  | ⟨2, _⟩ => show k.val = k.val + 0; omega

/-- The padded flat positions on a real ray's lane: the sum word of `128 ·` the row word and the column word. -/
theorem flatOf_apply (v : IVec S16x90x2 32) (b : Fin 16) (r : Fin 128) (hr : r.val < 90) :
    flatOf v (ix3 b (0 : Fin 1) r)
      = IntOp.addi (IntOp.muli (v (ix3 b (⟨r.val, hr⟩ : Fin 90) (0 : Fin 2))) 128#32) (v (ix3 b (⟨r.val, hr⟩ : Fin 90) (1 : Fin 2))) := by
  unfold flatOf
  refine (shapeCast_apply _ shapeCasts_S16x128_S16x1x128 (ix3 b (0 : Fin 1) r) (ix2 b r) ?_).trans ?_
  · rw [Shape.rowMajor_val_two, Shape.rowMajor_val_three]
    show b.val * 128 + r.val = (b.val * 1 + 0) * 128 + r.val
    omega
  refine (pad_apply_of_inside _ _ _ _ _ pads_S16x90_S16x128_000_0380 h_S_ (ix2 b r) (ix2 b (⟨r.val, hr⟩ : Fin 90)) ?_).trans ?_
  · intro a
    match a with
    | ⟨0, _⟩ => show b.val = 0 + b.val * (0 + 1); omega
    | ⟨1, _⟩ => show r.val = 0 + r.val * (0 + 1); omega
  show IntOp.addi (IntOp.muli _ _) _ = _
  have e0 := coord_apply v (0 : Fin 2) slices_S16x90x2_S16x90x1_0_0_0 b (⟨r.val, hr⟩ : Fin 90)
  have e1 := coord_apply v (1 : Fin 2) slices_S16x90x2_S16x90x1_0_0_1 b (⟨r.val, hr⟩ : Fin 90)
  have ec : broadcastInDim S16x90 ![] bcast_S_S16x90 (constantI S_ 32 128#32) (ix2 b (⟨r.val, hr⟩ : Fin 90)) = 128#32 := rfl
  rw [ec]
  exact congrArg₂ (fun p q => IntOp.addi (IntOp.muli p 128#32) q) e0 e1

/-- No wrap-around: for words `w0, w1` below 128, `w0 · 128 + w1` as a word is the word of the number `128 · w0 + w1`. -/
theorem flat_word (w0 w1 : BitVec 32) (h0 : w0.toNat < 128) (h1 : w1.toNat < 128) :
    IntOp.addi (IntOp.muli w0 128#32) w1 = BitVec.ofNat 32 (128 * w0.toNat + w1.toNat) := by
  unfold IntOp.addi IntOp.muli
  apply BitVec.eq_of_toNat_eq
  rw [BitVec.toNat_add, BitVec.toNat_mul, BitVec.toNat_ofNat, BitVec.toNat_ofNat]
  omega

/-- The first window's block index at grid point `t` is `(t, 0, 0)`. -/
theorem index0_0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The second window's block index at grid point `t` is `(t, 0, 0)`. -/
theorem index0_1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Block `t` of the flattened maps at `(0, c, s)`: the map of batch `t`, channel `c`, at row `s / 128`, column `s % 128`. -/
theorem maps_block_apply (c : Dev nD) (t : Fin cfg0.N) (cc : Fin 256) (s : Fin 16384) :
    iblk m c 0 t (ix3 (0 : Fin 1) cc s)
      = m ((c.tc : Thread nD τ).loc main_arg0)
          (ix4 (⟨t.val, t.isLt⟩ : Fin 16) cc (⟨s.val / 128, by omega⟩ : Fin 128) (⟨s.val % 128, Nat.mod_lt _ (by decide)⟩ : Fin 128)) := by
  obtain ⟨h0, h1, h2⟩ := index0_0 t
  unfold iblk
  show V m c main_v0 (((cfg0.win 0).blk t).view.emb (ix3 (0 : Fin 1) cc s)) = _
  rw [maps_eq m c]
  have e : ((cfg0.win 0).blk t).view.emb (ix3 (0 : Fin 1) cc s) = (ix3 (⟨t.val, t.isLt⟩ : Fin 16) cc s : S16x256x16384.Idx) := by
    funext a
    apply Fin.ext
    match a with
    | ⟨0, _⟩ => show win0_0.index t (0 : Fin 3) * 1 + 1 * 0 = t.val; rw [h0]; omega
    | ⟨1, _⟩ => show win0_0.index t (1 : Fin 3) * 256 + 1 * cc.val = cc.val; rw [h1]; omega
    | ⟨2, _⟩ => show win0_0.index t (2 : Fin 3) * 16384 + 1 * s.val = s.val; rw [h2]; omega
  rw [e]
  exact mapsOf_apply (m ((c.tc : Thread nD τ).loc main_arg0)) (⟨t.val, t.isLt⟩ : Fin 16) cc s

/-- Block `t` of the padded flat positions at a real ray's lane `r < 90`, the position words in range:
    the word of the number `128 · row + column`. -/
theorem flat_block_apply (c : Dev nD) (t : Fin cfg0.N) (r : Fin 128) (hr : r.val < 90)
    (hv : InRange (m ((c.tc : Thread nD τ).loc main_arg1))) :
    iblk m c 1 t (ix3 (0 : Fin 1) (0 : Fin 1) r)
      = BitVec.ofNat 32
          (128 * (m ((c.tc : Thread nD τ).loc main_arg1) (ix3 (⟨t.val, t.isLt⟩ : Fin 16) (⟨r.val, hr⟩ : Fin 90) (0 : Fin 2))).toNat
            + (m ((c.tc : Thread nD τ).loc main_arg1) (ix3 (⟨t.val, t.isLt⟩ : Fin 16) (⟨r.val, hr⟩ : Fin 90) (1 : Fin 2))).toNat) := by
  obtain ⟨h0, h1, h2⟩ := index0_1 t
  unfold iblk
  show V m c main_v9 (((cfg0.win 1).blk t).view.emb (ix3 (0 : Fin 1) (0 : Fin 1) r)) = _
  rw [flat_eq m c]
  have e : ((cfg0.win 1).blk t).view.emb (ix3 (0 : Fin 1) (0 : Fin 1) r) = (ix3 (⟨t.val, t.isLt⟩ : Fin 16) (0 : Fin 1) r : S16x1x128.Idx) := by
    funext a
    apply Fin.ext
    match a with
    | ⟨0, _⟩ => show win0_1.index t (0 : Fin 3) * 1 + 1 * 0 = t.val; rw [h0]; omega
    | ⟨1, _⟩ => show win0_1.index t (1 : Fin 3) * 1 + 1 * 0 = 0; rw [h1]
    | ⟨2, _⟩ => show win0_1.index t (2 : Fin 3) * 128 + 1 * r.val = r.val; rw [h2]; omega
  rw [e, flatOf_apply (m ((c.tc : Thread nD τ).loc main_arg1)) (⟨t.val, t.isLt⟩ : Fin 16) r hr]
  exact flat_word _ _ (hv _) (hv _)

end Cert.Sampler

end
-- ==== Proof.KernelValue.lean ====
/-
  The kernel's result array. Grid point `t` writes its output block to rows `[t]` of the `[16, 256, 128]` array, the
  sixteen blocks tile it, and the host then keeps lanes `[0, 90)`. At a kept lane the ray's flat position is
  `f = 128 · row + column < 16384`, the body leaves the flattened map's entry `(c, f)` there, and that entry is the
  map at `(f / 128, f % 128) = (row, column)`: the sampled map.
-/
import proofs.«416523_j6837587935505_3_alg».proof.Proof.Gen.KernelIdeal.Frame
import proofs.«416523_j6837587935505_3_alg».proof.Proof.Spec
import proofs.«416523_j6837587935505_3_alg».proof.Proof.KernelTrips
import proofs.«416523_j6837587935505_3_alg».proof.Proof.KernelHost
import Idealize.ShloMosaic.Lib.Pipeline.Value
import Idealize.ShloMosaic.Lib.StableHlo.Run

set_option maxRecDepth 16384

noncomputable section

namespace Cert.Sampler

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The result array as the sixteen points' output blocks laid along the batch axis. -/
def blocks (c : Dev nD) : S16x256x128.Idx → EReal := fun i =>
  outsAt0 (F := Ideal) m c ⟨(i 0).val, (i 0).isLt⟩ (ix3 (0 : Fin 1) (i 1) (i 2))

/-- The output window's block index at point `t` is `(t, 0, 0)`. -/
theorem out_index : ∀ t : Fin cfg0.N, win0_2.index t (0 : Fin 3) = t.val ∧ win0_2.index t (1 : Fin 3) = 0
    ∧ win0_2.index t (2 : Fin 3) = 0 :=
  (by decide +kernel : ∀ t : Fin grid0.N, _)

/-- What point `t` writes back is block `t` of `blocks`. -/
theorem flushed_eq (c : Dev nD) (t : Fin cfg0.N) :
    (dats m 0 c).flushed 2 t = ((cfg0.win 2).blk t).view.read (Elt Ideal) (blocks m c) := by
  show (cfg0.win 2).cut (grid0.coords t) ((dats m 0 c).after 2 t) = _
  rw [after0_2]
  obtain ⟨e0, e1, e2⟩ := out_index t
  funext y
  show outsAt0 m c t y = blocks m c (((cfg0.win 2).blk t).view.emb y)
  unfold blocks
  have key : ∀ (t' : Fin cfg0.N) (y' : S1x256x128.Idx), t' = t → y' = y →
      outsAt0 (F := Ideal) m c t y = outsAt0 (F := Ideal) m c t' y' := by
    rintro _ _ rfl rfl; rfl
  have hy0 : (y 0).val < 1 := (y 0).isLt
  refine key _ _ (Fin.ext ?_) (funext fun a => Fin.ext ?_)
  · show win0_2.index t (0 : Fin 3) * 1 + 1 * (y 0).val = t.val
    omega
  · match a with
    | ⟨0, _⟩ => show (0 : ℕ) = (y 0).val; omega
    | ⟨1, _⟩ => show win0_2.index t (1 : Fin 3) * 256 + 1 * (y 1).val = (y 1).val; omega
    | ⟨2, _⟩ => show win0_2.index t (2 : Fin 3) * 128 + 1 * (y 2).val = (y 2).val; omega

/-- An index of the array is in point `t`'s block iff each coordinate is in the block's range on its axis. -/
theorem mem_blk (t : Fin cfg0.N) (i : S16x256x128.Idx) :
    i ∈ ((cfg0.win 2).blk t).view.set ↔ ∀ a : Fin 3, win0_2.index t a * S1x256x128.size a ≤ (i a).val
      ∧ (i a).val < win0_2.index t a * S1x256x128.size a + S1x256x128.size a := by
  show i ∈ ((View.whole main_v10).slice (win0_2.rect t)).set ↔ _
  rw [View.set_slice_whole, Rect.mem_set_unit]
  exact Iff.rfl

/-- Every index of the array lies in the block of the point its batch coordinate names. -/
theorem cover (i : S16x256x128.Idx) :
    ∃ t : Fin cfg0.N, (cfg0.win 2).flush t = true ∧ i ∈ ((cfg0.win 2).blk t).view.set := by
  have h0 : (i 0).val < 16 := (i 0).isLt
  have h1 : (i 1).val < 256 := (i 1).isLt
  have h2 : (i 2).val < 128 := (i 2).isLt
  obtain ⟨e0, e1, e2⟩ := out_index ⟨(i 0).val, h0⟩
  refine ⟨⟨(i 0).val, h0⟩, flush0_2 _, ?_⟩
  rw [mem_blk]
  intro a
  match a with
  | ⟨0, _⟩ =>
    show win0_2.index ⟨(i 0).val, h0⟩ (0 : Fin 3) * 1 ≤ (i 0).val ∧ (i 0).val < win0_2.index ⟨(i 0).val, h0⟩ (0 : Fin 3) * 1 + 1
    rw [e0]; show (i 0).val * 1 ≤ (i 0).val ∧ (i 0).val < (i 0).val * 1 + 1; omega
  | ⟨1, _⟩ =>
    show win0_2.index ⟨(i 0).val, h0⟩ (1 : Fin 3) * 256 ≤ (i 1).val ∧ (i 1).val < win0_2.index ⟨(i 0).val, h0⟩ (1 : Fin 3) * 256 + 256
    rw [e1]; omega
  | ⟨2, _⟩ =>
    show win0_2.index ⟨(i 0).val, h0⟩ (2 : Fin 3) * 128 ≤ (i 2).val ∧ (i 2).val < win0_2.index ⟨(i 0).val, h0⟩ (2 : Fin 3) * 128 + 128
    rw [e2]; omega

/-- The result array after the run is `blocks`. -/
theorem final (c : Dev nD) : (dats m 0 c).arrAt 2 cfg0.N = blocks m c :=
  (dats m 0 c).arrAt_eq_of_cover 2 (blocks m c) (fun t _ => flushed_eq m c t) (cover)

/-- The grid has sixteen points. -/
theorem points_eq : cfg0.N = 16 := by decide

/-- A kept lane of `blocks` in the rows of point `t`, on finite maps and position words in range, is the sampled map. -/
theorem blocks_apply (c : Dev nD) (hx : Finite (m ((c.tc : Thread nD τ).loc main_arg0)))
    (hv : InRange (m ((c.tc : Thread nD τ).loc main_arg1))) (t : Fin cfg0.N) (cc : Fin 256) (r : Fin 90) :
    blocks m c (ix3 (⟨t.val, t.isLt⟩ : Fin 16) cc (⟨r.val, by omega⟩ : Fin 128))
      = sampled (m ((c.tc : Thread nD τ).loc main_arg0)) (m ((c.tc : Thread nD τ).loc main_arg1))
          (ix3 (⟨t.val, t.isLt⟩ : Fin 16) cc r) := by
  have hr : r.val < 90 := r.isLt
  have hi := hv (ix3 (⟨t.val, t.isLt⟩ : Fin 16) r (0 : Fin 2))
  have hj := hv (ix3 (⟨t.val, t.isLt⟩ : Fin 16) r (1 : Fin 2))
  have hf : 128 * (m ((c.tc : Thread nD τ).loc main_arg1) (ix3 (⟨t.val, t.isLt⟩ : Fin 16) r (0 : Fin 2))).toNat
      + (m ((c.tc : Thread nD τ).loc main_arg1) (ix3 (⟨t.val, t.isLt⟩ : Fin 16) r (1 : Fin 2))).toNat < 16384 := by omega
  have hfin : ∀ j : S1x256x16384.Idx, ∃ q : ℝ, iblk m c 0 t j = (q : EReal) := by
    intro j
    have hj0 : (j 0).val < 1 := (j 0).isLt
    have h1 : (j 1).val < 256 := (j 1).isLt
    have h2 : (j 2).val < 16384 := (j 2).isLt
    have ej : j = ix3 (0 : Fin 1) (⟨(j 1).val, h1⟩ : Fin 256) (⟨(j 2).val, h2⟩ : Fin 16384) := by
      funext a
      match a with
      | ⟨0, _⟩ => exact Fin.ext (by show (j 0).val = 0; omega)
      | ⟨1, _⟩ => rfl
      | ⟨2, _⟩ => rfl
    have e1 : iblk m c 0 t j
        = iblk m c 0 t (ix3 (0 : Fin 1) (⟨(j 1).val, h1⟩ : Fin 256) (⟨(j 2).val, h2⟩ : Fin 16384)) :=
      congrArg (iblk m c 0 t) ej
    obtain ⟨q, hq⟩ := hx (ix4 (⟨t.val, t.isLt⟩ : Fin 16) (⟨(j 1).val, h1⟩ : Fin 256)
      (⟨(j 2).val / 128, by omega⟩ : Fin 128) (⟨(j 2).val % 128, Nat.mod_lt _ (by decide)⟩ : Fin 128))
    exact ⟨q, e1.trans ((maps_block_apply m c t (⟨(j 1).val, h1⟩ : Fin 256) (⟨(j 2).val, h2⟩ : Fin 16384)).trans hq)⟩
  rw [sampled_apply _ _ hv]
  have eb : blocks m c (ix3 (⟨t.val, t.isLt⟩ : Fin 16) cc (⟨r.val, by omega⟩ : Fin 128))
      = out0_A_2 (F := Ideal) c (grid0.coords t) (ms0_0 t) (hs0_0 t) (ms0_1 t) (hs0_1 t) (ms0_2 t) (hs0_2 t)
          (iblk m c 0 t) (iblk m c 1 t) (ix3 (0 : Fin 1) cc (⟨r.val, by omega⟩ : Fin 128)) := rfl
  rw [eb]
  refine (body_apply c (grid0.coords t) (ms0_0 t) (hs0_0 t) (ms0_1 t) (hs0_1 t) (ms0_2 t) (hs0_2 t)
    (iblk m c 0 t) (iblk m c 1 t) hfin cc (⟨r.val, by omega⟩ : Fin 128)
    (128 * (m ((c.tc : Thread nD τ).loc main_arg1) (ix3 (⟨t.val, t.isLt⟩ : Fin 16) r (0 : Fin 2))).toNat
      + (m ((c.tc : Thread nD τ).loc main_arg1) (ix3 (⟨t.val, t.isLt⟩ : Fin 16) r (1 : Fin 2))).toNat) hf
    (flat_block_apply m c t (⟨r.val, by omega⟩ : Fin 128) hr hv)).trans ?_
  rw [maps_block_apply m c t cc]
  refine congrArg (m ((c.tc : Thread nD τ).loc main_arg0)) (funext fun a => Fin.ext ?_)
  match a with
  | ⟨0, _⟩ => rfl
  | ⟨1, _⟩ => rfl
  | ⟨2, _⟩ =>
    show (128 * (m ((c.tc : Thread nD τ).loc main_arg1) (ix3 (⟨t.val, t.isLt⟩ : Fin 16) r (0 : Fin 2))).toNat
      + (m ((c.tc : Thread nD τ).loc main_arg1) (ix3 (⟨t.val, t.isLt⟩ : Fin 16) r (1 : Fin 2))).toNat) / 128
        = (m ((c.tc : Thread nD τ).loc main_arg1) (ix3 (⟨t.val, t.isLt⟩ : Fin 16) r (0 : Fin 2))).toNat
    omega
  | ⟨3, _⟩ =>
    show (128 * (m ((c.tc : Thread nD τ).loc main_arg1) (ix3 (⟨t.val, t.isLt⟩ : Fin 16) r (0 : Fin 2))).toNat
      + (m ((c.tc : Thread nD τ).loc main_arg1) (ix3 (⟨t.val, t.isLt⟩ : Fin 16) r (1 : Fin 2))).toNat) % 128
        = (m ((c.tc : Thread nD τ).loc main_arg1) (ix3 (⟨t.val, t.isLt⟩ : Fin 16) r (1 : Fin 2))).toNat
    omega

/-- The host's last line keeps lanes `[0, 90)` of the result array. -/
theorem tail_eq (c : Dev nD) :
    Pipeline.afterTail₀ cfgs (dats m) 0 (V0 m) [hostOps1] c main_v11
      = extractStridedSlice S16x256x90 ![0, 0, 0] (blocks m c) slices_S16x256x128_S16x256x90_0_0_0 := by
  unfold Pipeline.afterTail₀
  show StableHlo.after hostOps1 _ (Proc.devRef .tc main_v11) = _
  after_results
  exact congrArg (fun z => extractStridedSlice S16x256x90 ![0, 0, 0] z slices_S16x256x128_S16x256x90_0_0_0)
    ((Pipeline.withArrays_arr spec0 launch0.win.arr_inj c (V0 m c) (fun w => (dats m 0 c).arrAt w cfg0.N) 2).trans (final m c))

/-- The kept lanes, on finite maps and position words in range, are the sampled map. -/
theorem tail_value (c : Dev nD) (hx : Finite (m ((c.tc : Thread nD τ).loc main_arg0)))
    (hv : InRange (m ((c.tc : Thread nD τ).loc main_arg1))) :
    Pipeline.afterTail₀ cfgs (dats m) 0 (V0 m) [hostOps1] c main_v11
      = sampled (m ((c.tc : Thread nD τ).loc main_arg0)) (m ((c.tc : Thread nD τ).loc main_arg1)) := by
  rw [tail_eq]
  funext j
  obtain ⟨b, cc, r, rfl⟩ : ∃ (b : Fin 16) (cc : Fin 256) (r : Fin 90), j = ix3 b cc r := ⟨j 0, j 1, j 2, eq_ix3 j⟩
  have hr : r.val < 90 := r.isLt
  refine (extractStridedSlice_apply ![0, 0, 0] (blocks m c) slices_S16x256x128_S16x256x90_0_0_0 (ix3 b cc r)
    (ix3 b cc (⟨r.val, by omega⟩ : Fin 128)) (fun a => match a with
      | ⟨0, _⟩ => by show b.val = 0 + b.val; omega
      | ⟨1, _⟩ => by show cc.val = 0 + cc.val; omega
      | ⟨2, _⟩ => by show r.val = 0 + r.val; omega)).trans ?_
  exact blocks_apply m c hx hv (Fin.cast points_eq.symm b) cc r

/-- THE KERNEL'S RUN, READ. On finite maps and position words in range every weakly fair execution ends with
    the result at the sampled map and the arguments as launched. -/
theorem kernel_run (hx : ∀ c : Dev nD, Finite (m ((c.tc : Thread nD τ).loc main_arg0)))
    (hv : ∀ c : Dev nD, InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v11)
          = sampled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v11 (Pipeline.mem_restRefs_of main_v11 (by decide) (by decide))).trans (tail_value m c (hx c) (hv c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Sampler

end
-- ==== Proof.lean ====
/-
  The kernel gathers, for each of 90 rays per batch, one spatial position of a [16, 256, 128, 128] feature map in
  every channel. It does so densely: the map's spatial axes flattened to 16384 columns are swept in sixteen
  chunks of 1024 columns, each chunk multiplied with a one-hot matrix (column `r` has its one in the row the ray's
  flat position `128 · row + column` names, if that position lies in the chunk) and accumulated; the entries are
  split as a high part plus a remainder before the product, which over the extended reals is `x + (x − x) = x` for a
  finite `x`. The reference indexes the map directly. For position words in [0, 128) (the two spatial extents) and
  finite map entries both end at the same array, `Cert.Sampler.sampled`:
    · Spec — the function; PreFacts — what the precondition says of the arguments;
    · OneHot — one chunk of the sweep at an entry; KernelTrips — the sweep's invariant and the body at a point;
    · KernelHost — the flattened maps and the padded flat positions as the region finds them;
    · KernelValue — the blocks tile the result array, the kept lanes, the run; RefValue — the reference's gather.
-/
import proofs.«416523_j6837587935505_3_alg».proof.Defs
import proofs.«416523_j6837587935505_3_alg».proof.Proof.Gen.Kernel
import proofs.«416523_j6837587935505_3_alg».proof.Proof.Gen.Kernel.Skeleton
import proofs.«416523_j6837587935505_3_alg».proof.Proof.Gen.Kernel.Loops
import proofs.«416523_j6837587935505_3_alg».proof.Proof.Gen.Kernel.Launch
import proofs.«416523_j6837587935505_3_alg».proof.Proof.Gen.Kernel.Points
import proofs.«416523_j6837587935505_3_alg».proof.Proof.Gen.Kernel.Frame
import proofs.«416523_j6837587935505_3_alg».proof.Proof.Gen.KernelIdeal
import proofs.«416523_j6837587935505_3_alg».proof.Proof.Gen.KernelIdeal.Skeleton
import proofs.«416523_j6837587935505_3_alg».proof.Proof.Gen.KernelIdeal.Loops
import proofs.«416523_j6837587935505_3_alg».proof.Proof.Gen.KernelIdeal.Launch
import proofs.«416523_j6837587935505_3_alg».proof.Proof.Gen.KernelIdeal.Points
import proofs.«416523_j6837587935505_3_alg».proof.Proof.Gen.KernelIdeal.Frame
import proofs.«416523_j6837587935505_3_alg».proof.Proof.Gen.ReferenceIdeal
import proofs.«416523_j6837587935505_3_alg».proof.Proof.Gen.ReferenceIdeal.Run
import proofs.«416523_j6837587935505_3_alg».proof.Proof.Gen.ReferenceIdeal.Read
import proofs.«416523_j6837587935505_3_alg».proof.Proof.Gen.Pre_finite_inputs
import proofs.«416523_j6837587935505_3_alg».proof.Proof.Spec
import proofs.«416523_j6837587935505_3_alg».proof.Proof.PreFacts
import proofs.«416523_j6837587935505_3_alg».proof.Proof.RefValue
import proofs.«416523_j6837587935505_3_alg».proof.Proof.KernelValue
import Idealize.ShloMosaic.Adequacy
import Idealize.ShloMosaic.Init

noncomputable section

namespace Cert.Proof

open Idealize.ShloMosaic Idealize.SL.Sem Cert.Sampler

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: a word with its low half cleared, read as a float, is the float truncated
    to its high half and widened back. -/
theorem preserves : Cert.preserves_Kernel_KernelIdeal :=
  IdealRules.bf16_pack.statement Cert.KernelIdeal.S256x1024

/-- Both idealized programs end at the sampled map of the (agreeing) arguments. -/
theorem algebraic : Cert.algebraic_KernelIdeal_ReferenceIdeal := by
  intro m ρ m' ρ' hpre hagree
  have hfacts : ∀ c : Dev Cert.KernelIdeal.nD,
      Finite (m ((c.tc : Thread Cert.KernelIdeal.nD Cert.KernelIdeal.τ).loc Cert.KernelIdeal.main_arg0))
      ∧ InRange (m ((c.tc : Thread Cert.KernelIdeal.nD Cert.KernelIdeal.τ).loc Cert.KernelIdeal.main_arg1)) :=
    fun c => pre_facts _ _ (hpre c)
  refine ⟨fun c => sampled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    kernel_run m ρ (fun c => (hfacts c).1) (fun c => (hfacts c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact ref_value _ _ (hfacts c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
